-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x2 : Shape := ⟨2, ![8192, 2]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S8192x2048 .f32) (main_arg1 : FVec F S8192x2 .f32) (main_arg2 : IVec S8192x2 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_c_2 : IVec S_ 32 := constantI S_ 32 0#32
  let main_v9 : IVec S8192x2 32 := broadcastInDim S8192x2 ![] bcast_S_S8192x2 main_c_2
  let main_v10 : IVec S8192x2 1 := cmpi .sge main_arg2 main_v9
  let main_c_3 : IVec S_ 1 := constantI S_ 1 1#1
  let main_v11 : IVec S_ 1 := (fun x v => Host.reduce IntOp.andi x v reducesTo_S8192x2_S_d0_1 h_S_) main_v10 main_c_3
  let main_v12 : IVec S_ 1 := andi main_v8 main_v11
  main_v12
-- ==== Kernel.lean ====
abbrev S8192x2048 : Shape := ⟨2, ![8192, 2048]⟩
abbrev S8192x2 : Shape := ⟨2, ![8192, 2]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S_ : Shape := ⟨0, ![]⟩
abbrev S1024x2048 : Shape := ⟨2, ![1024, 2048]⟩
abbrev S1024x2 : Shape := ⟨2, ![1024, 2]⟩
abbrev S1024 : Shape := ⟨1, ![1024]⟩
abbrev S1024x1 : Shape := ⟨2, ![1024, 1]⟩

abbrev nBuf : Space → Nat
  | .hbm => 14
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2, .f32⟩
  | .hbm, ⟨2, _⟩ => ⟨S8192x2, .i32⟩
  | .hbm, ⟨3, _⟩ => ⟨S16384, .i32⟩
  | .hbm, ⟨4, _⟩ => ⟨S8, .i32⟩
  | .hbm, ⟨5, _⟩ => ⟨S16384x1, .i32⟩
  | .hbm, ⟨6, _⟩ => ⟨S1x8, .i32⟩
  | .hbm, ⟨7, _⟩ => ⟨S16384x8, .i32⟩
  | .hbm, ⟨8, _⟩ => ⟨S16384x8, .i32⟩
  | .hbm, ⟨9, _⟩ => ⟨S16384x8, .i1⟩
  | .hbm, ⟨10, _⟩ => ⟨S16384x8, .i32⟩
  | .hbm, ⟨11, _⟩ => ⟨S_, .i32⟩
  | .hbm, ⟨12, _⟩ => ⟨S8, .i32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2, .f32⟩
  | .local _ .vmem, ⟨3, _⟩ => ⟨S1024x2, .f32⟩
  | .local _ .vmem, ⟨4, _⟩ => ⟨S1024x2048, .f32⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192x2_S16384 : S8192x2.ShapeCasts S16384
  bcast_S16384_S16384x1_0 : S16384.BroadcastsInDim S16384x1 (![0] : Fin 1 → Fin S16384x1.rank)
  bcast_S8_S1x8_1 : S8.BroadcastsInDim S1x8 (![1] : Fin 1 → Fin S1x8.rank)
  bcast_S16384x1_S16384x8_0_1 : S16384x1.BroadcastsInDim S16384x8 (![0, 1] : Fin 2 → Fin S16384x8.rank)
  bcast_S1x8_S16384x8_0_1 : S1x8.BroadcastsInDim S16384x8 (![0, 1] : Fin 2 → Fin S16384x8.rank)
  natLt_1_32 : 1 < 32
  reducesTo_S16384x8_S8_d0 : S16384x8.ReducesTo [0] S8
  h_S_ : 0 < S_.numel
  inb_S1024x2_S1024x2_0_0 : ∀ a, (![0, 0] : Fin 2 → Nat) a + S1024x2.size a ≤ S1024x2.size a
  h_S1024x2 : 0 < S1024x2.numel
  reduces_S1024x2_S1024 : S1024x2.Reduces [1] S1024
  shapeCasts_S1024_S1024x1 : S1024.ShapeCasts S1024x1
  inb_S1024x2048_S1024x2048_0_0 : ∀ a, (![0, 0] : Fin 2 → Nat) a + S1024x2048.size a ≤ S1024x2048.size a
  h_S1024x2048 : 0 < S1024x2048.numel
  broadcasts_S1024x1_S1024x2048 : S1024x1.Broadcasts S1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .f32 = 32 ∨ (Rect.block (s := S8192x2048) S1024x2048.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8192x2048 : Shape := ⟨2, ![8192, 2048]⟩
abbrev S8192x2 : Shape := ⟨2, ![8192, 2]⟩
abbrev S16384 : Shape := ⟨1, ![16384]⟩
abbrev S_ : Shape := ⟨0, ![]⟩
abbrev S8 : Shape := ⟨1, ![8]⟩
abbrev S16384x1 : Shape := ⟨2, ![16384, 1]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2, .f32⟩
  | .hbm, ⟨2, _⟩ => ⟨S8192x2, .i32⟩
  | .hbm, ⟨3, _⟩ => ⟨S16384, .i32⟩
  | .hbm, ⟨4, _⟩ => ⟨S_, .i32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S_, .i32⟩
  | .hbm, ⟨19, _⟩ => ⟨S16384, .i32⟩
  | .hbm, ⟨20, _⟩ => ⟨S8, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384, .f32⟩
  | .hbm, ⟨34, _⟩ => ⟨S_, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S16384, .i32⟩
  | .hbm, ⟨43, _⟩ => ⟨S16384, .i32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S16384x2048, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S8192x2048, .f32⟩
  | .hbm, ⟨66, _⟩ => ⟨S_, .i32⟩
  | .hbm, ⟨67, _⟩ => ⟨S16384, .i32⟩
  | .hbm, ⟨68, _⟩ => ⟨S16384, .i1⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .i32⟩
  | .hbm, ⟨73, _⟩ => ⟨S16384x1, .i32⟩
  | .hbm, ⟨74, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_call1_v0 : Ref sig .tc := ⟨.hbm, 21, rfl⟩
abbrev main_call1_v1_0 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v20 : Ref sig .tc := ⟨.hbm, 51, rfl⟩
abbrev main_c_7 : Ref sig .tc := ⟨.hbm, 52, rfl⟩
abbrev main_v21 : Ref sig .tc := ⟨.hbm, 53, rfl⟩
abbrev main_v22 : Ref sig .tc := ⟨.hbm, 54, rfl⟩
abbrev main_c_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst : Ref sig .tc := ⟨.hbm, 64, rfl⟩
abbrev main_v31 : Ref sig .tc := ⟨.hbm, 65, rfl⟩
abbrev main_c_9 : Ref sig .tc := ⟨.hbm, 66, rfl⟩
abbrev main_v32 : Ref sig .tc := ⟨.hbm, 67, rfl⟩
abbrev main_v33 : Ref sig .tc := ⟨.hbm, 68, rfl⟩
abbrev main_c_10 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  shapeCasts_S8192x2_S16384 : S8192x2.ShapeCasts S16384
  bcast_S_S8 : S_.BroadcastsInDim S8 (![] : Fin 0 → Fin S8.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  bcast_S_S8192x2048 : S_.BroadcastsInDim S8192x2048 (![] : Fin 0 → Fin S8192x2048.rank)
  scatter_S8_S16384x1_S16384_n_0_0_1_wf : ScatterDims.WF S8 S16384x1 S16384 [] [0] [0] 1
  gather_S16384_S16384x1_S16384_n_0_n_n_0_1_1_wf : GatherDims.WF S16384 S16384x1 S16384 [] [0] [] [0] [] 1 ![1]
  gather_S8192x2048_S16384x1_S16384x2048_1_0_n_n_0_1_12048_wf : GatherDims.WF S8192x2048 S16384x1 S16384x2048 [1] [0] [] [0] [] 1 ![1, 2048]
  scatter_S8192x2048_S16384x1_S16384x2048_1_0_0_1_wf : ScatterDims.WF S8192x2048 S16384x1 S16384x2048 [1] [0] [0] 1

variable [Facts₀]

def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

class Facts : Prop extends Facts₀ where

variable [Facts]
-- ==== Proof.KerTerms.lean ====
/-
  The kernel program's expert count as a pure term of the ids: every slot compared with each of the eight expert
  numbers, the truth values widened to words and added along the slots.
-/
import proofs.«415601_j22874995818748_3_alg».proof.KernelIdeal

noncomputable section

namespace Cert.KernelIdeal.Terms

open Idealize.ShloMosaic Cert.KernelIdeal

variable [Facts]
open Facts₀ Facts

/-- The expert ids, token-major. -/
def flat (ids : IVec S8192x2 32) : IVec S16384 32 := shapeCast S16384 ids shapeCasts_S8192x2_S16384

/-- Slot `n` against expert `e`: one where the slot's id is `e`, else zero. -/
def oneHot (ids : IVec S8192x2 32) : IVec S16384x8 32 :=
  extui 32
    (cmpi .eq
      (broadcastInDim S16384x8 ![0, 1] bcast_S16384x1_S16384x8_0_1 (broadcastInDim S16384x1 ![0] bcast_S16384_S16384x1_0 (flat ids)))
      (broadcastInDim S16384x8 ![0, 1] bcast_S1x8_S16384x8_0_1 (broadcastInDim S1x8 ![1] bcast_S8_S1x8_1 (iotaInDim S8 32 0))))
    natLt_1_32

/-- The count of slots per expert. -/
def kerHist (ids : IVec S8192x2 32) : IVec S8 32 :=
  Host.reduce IntOp.addi (oneHot ids) (constantI S_ 32 0#32) reducesTo_S16384x8_S8_d0 h_S_

end Cert.KernelIdeal.Terms

end
-- ==== Proof.Spec.lean ====
/-
  What both programs compute for the combined output, as one function of the features `x` and the scores `s`:
  row `t` of `x` times the sum of token `t`'s two scores.
-/
import Idealize.ShloMosaic.PureOps.Ideal
import Idealize.ShloMosaic.Lib.ValueIdx

noncomputable section

namespace Cert.Spec

open Idealize.ShloMosaic Idealize.ShloMosaic.ValueIdx

/-- `out[t, d] = x[t, d] · (s[t, 0] + s[t, 1])` on the extended reals. -/
def outSpec (x : (⟨2, ![8192, 2048]⟩ : Shape).Idx → EReal) (s : (⟨2, ![8192, 2]⟩ : Shape).Idx → EReal) :
    (⟨2, ![8192, 2048]⟩ : Shape).Idx → EReal :=
  fun i => x i * (s (ix2 ⟨(i 0).val, idx2_lt0 i⟩ (0 : Fin 2)) + s (ix2 ⟨(i 0).val, idx2_lt0 i⟩ (1 : Fin 2)))

theorem outSpec_apply (x : (⟨2, ![8192, 2048]⟩ : Shape).Idx → EReal) (s : (⟨2, ![8192, 2]⟩ : Shape).Idx → EReal)
    (t : Fin 8192) (d : Fin 2048) :
    outSpec x s (ix2 t d) = x (ix2 t d) * (s (ix2 t (0 : Fin 2)) + s (ix2 t (1 : Fin 2))) := rfl

end Cert.Spec

end
-- ==== Proof.KerValue.lean ====
/-
  The kernel program's run with its two results as closed terms of the arguments, on the extended reals.

  The combined output: the body multiplies each feature by the sum over the two score lanes of its row; a block of
  1024 rows is written per grid point, the feature, score and output blocks of a point lying under the same rows of
  their arrays, and the eight blocks cover the 8192 rows, so the output array ends as the row-scaled features.
  The count: it is computed before the region by comparing every id slot with the eight expert numbers, widening and
  adding along the slots; the region does not touch it, so it ends as that term of the ids. The arguments stay as launched.
-/
import proofs.«415601_j22874995818748_3_alg».proof.Proof.Gen.KernelIdeal.Value
import proofs.«415601_j22874995818748_3_alg».proof.Proof.KerTerms
import proofs.«415601_j22874995818748_3_alg».proof.Proof.Spec
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The zero offsets of a whole-block rectangle, however they are spelt. -/
theorem zeroOff : (![0, 0] : Fin 2 → Nat) = fun _ => 0 := funext fun a => by fin_cases a <;> rfl

/-- The sum along the two score lanes of row `j`: the row's first score plus its second. -/
theorem laneSum (P1 : Vec Ideal S1024x2 .f32) (j : S1024.Idx) :
    (multiReduction (F := Ideal) .add [1] S1024 P1 0x00000000#32 reduces_S1024x2_S1024 (.inl rfl) rfl) j
      = P1 (ix2 (⟨(j 0).val, (j 0).isLt⟩ : Fin 1024) (0 : Fin 2)) + P1 (ix2 (⟨(j 0).val, (j 0).isLt⟩ : Fin 1024) (1 : Fin 2)) := by
  refine (Ideal.multiReduction_add_single P1 0x00000000#32 reduces_S1024x2_S1024 (.inl rfl) rfl j).trans ?_
  show (∑ k : Fin 2, P1 (reduces_S1024x2_S1024.lift j k)) = _
  rw [Fin.sum_univ_two]
  congr 1 <;> congr 1 <;> funext a <;> apply Fin.ext <;> (match a with | ⟨0, _⟩ => rfl | ⟨1, _⟩ => rfl)

/-- What the body leaves in a block, element by element: the feature times the sum of its row's two scores. -/
theorem blockVal (P0 : Vec Ideal S1024x2048 .f32) (P1 : Vec Ideal S1024x2 .f32) (y : S1024x2048.Idx) :
    out0_2 P0 P1 y = P0 y * (P1 (ix2 (⟨(y 0).val, (y 0).isLt⟩ : Fin 1024) (0 : Fin 2)) + P1 (ix2 (⟨(y 0).val, (y 0).isLt⟩ : Fin 1024) (1 : Fin 2))) := by
  unfold out0_2
  rw [Value.canon2_eq]
  rw [View.ld_unit_zero (S := S1024x2048) zeroOff, View.ld_unit_zero (S := S1024x2) zeroOff]
  show (P0 (Value.ix2_0 y)) * ((multiReduction (F := Ideal) .add [1] S1024 P1 0x00000000#32 reduces_S1024x2_S1024 (.inl rfl) rfl) (Value.ix2_1 y)) = _
  rw [laneSum]
  have e0 : Value.ix2_0 y = y := by
    funext a; apply Fin.ext; match a with | ⟨0, _⟩ => rfl | ⟨1, _⟩ => rfl
  rw [e0]

/-- The count array as the region finds it: the host operations before the region, composed. -/
theorem count_eq (c : Dev nD) : (V m c main_v8 : S8.Idx → BitVec 32) = Terms.kerHist (m ((c : Thread nD τ).loc main_arg2)) := by
  unfold Terms.kerHist Terms.oneHot Terms.flat
  dsimp only [Gen.V, Gen.hostOps0]
  after_results
  rfl

/-- The three windows' index maps over the grid: point `t` takes block row `t`, block column 0, of each array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The feature array as the region finds it, at its literal type. -/
abbrev xarr (c : Dev nD) : S8192x2048.Idx → EReal := V m c main_arg0
/-- The score array as the region finds it, at its literal type. -/
abbrev sarr (c : Dev nD) : S8192x2.Idx → EReal := V m c main_arg1

/-- Point `t` writes back block `t` of the row-scaled array: the feature block and the score block of point `t` sit
    under the same rows of their arrays as the output block does. -/
theorem flushed_eq (c : Dev nD) (t : Fin cfg0.N) :
    (dats m 0 c).flushed 2 t = ((cfg0.win 2).blk t).view.read (Elt Ideal) (Cert.Spec.outSpec (V m c main_arg0) (V m c main_arg1)) := by
  rw [Value.flushed2]
  obtain ⟨a0, a1, b0, b1, o0, o1⟩ := idx_facts t
  funext j
  show out0_2 (iblk m c 0 t) (iblk m c 1 t) j = Cert.Spec.outSpec (V m c main_arg0) (V m c main_arg1) (((cfg0.win 2).blk t).view.emb j)
  refine (blockVal (iblk m c 0 t) (iblk m c 1 t) j).trans ?_
  have hj0 : (j 0).val < 1024 := (j 0).isLt
  have hj1 : (j 1).val < 2048 := (j 1).isLt
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * (j 1).val = win0_2.index t (1 : Fin 2) * 2048 + 1 * (j 1).val; omega
  have h1 : ∀ l : Fin 2, ((cfg0.win 1).blk t).view.emb (ix2 (⟨(j 0).val, hj0⟩ : Fin 1024) l)
      = ix2 (⟨((((cfg0.win 2).blk t).view.emb j) 0).val, idx2_lt0 (((cfg0.win 2).blk t).view.emb j)⟩ : Fin 8192) l := by
    intro l; funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 2 + 1 * l.val = l.val; omega
  show xarr m c (((cfg0.win 0).blk t).view.emb j)
        * (sarr m c (((cfg0.win 1).blk t).view.emb (ix2 (⟨(j 0).val, hj0⟩ : Fin 1024) (0 : Fin 2)))
          + sarr m c (((cfg0.win 1).blk t).view.emb (ix2 (⟨(j 0).val, hj0⟩ : Fin 1024) (1 : Fin 2))))
      = xarr m c (((cfg0.win 2).blk t).view.emb j)
        * (sarr m c (ix2 (⟨((((cfg0.win 2).blk t).view.emb j) 0).val, idx2_lt0 (((cfg0.win 2).blk t).view.emb j)⟩ : Fin 8192) (0 : Fin 2))
          + sarr m c (ix2 (⟨((((cfg0.win 2).blk t).view.emb j) 0).val, idx2_lt0 (((cfg0.win 2).blk t).view.emb j)⟩ : Fin 8192) (1 : Fin 2)))
  rw [h0, h1 0, h1 1]

/-- An index of the output array lies in point `t`'s block exactly when each coordinate lies in the block's range. -/
theorem mem_blk (t : Fin cfg0.N) (i : S8192x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v9).slice (win0_2.rect t)).set ↔ _
  rw [View.set_slice_whole, Rect.mem_set_unit]
  exact Iff.rfl

/-- Every index of the output array lies in some point's block: row `r` in the block of point `r / 1024`. -/
theorem covered (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, o0, o1⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The output array after the run: every row of the features scaled by the sum of its two scores. -/
theorem final (c : Dev nD) :
    (dats m 0 c).arrAt 2 cfg0.N = Cert.Spec.outSpec (V m c main_arg0) (V m c main_arg1) :=
  (dats m 0 c).arrAt_eq_of_cover 2 (Cert.Spec.outSpec (V m c main_arg0) (V m c main_arg1)) (fun t _ => flushed_eq m c t) covered

/-- The kernel program's run, read: the combined output is the row-scaled features, the count array is the
    per-expert count of the ids, and the three arguments are as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.Spec.outSpec (m ((c.tc : Thread nD τ).loc main_arg0)) (m ((c.tc : Thread nD τ).loc main_arg1))
      ∧ r.2.mem ((c.tc : Thread nD τ).loc main_v8) = Terms.kerHist (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((Value.post2 m r h c).trans (final m c)).trans (by rw [V_main_arg0, V_main_arg1]),
       ((h c).2 main_v8 (Pipeline.mem_restRefs_of main_v8 (by decide) (by decide))).trans (count_eq m c),
       Value.kept_main_arg0 m r h c,
       Value.kept_main_arg1 m r h c,
       Value.kept_main_arg2 m r h c⟩)
    (run_main m ρ)

end Cert.KernelIdeal.KerValue

end
-- ==== Proof.RefTerms.lean ====
/-
  The reference's two results as pure terms of its three arguments: the host operations of its program composed in
  program order, the three outlined functions (the clip, the argsort, the floor division) written in place.
  Nothing is proved here; the run of the program is shown to end at these terms elsewhere, and their values are
  read index by index elsewhere.
-/
import proofs.«415601_j22874995818748_3_alg».proof.ReferenceIdeal

noncomputable section

namespace Cert.ReferenceIdeal.Terms

open Idealize.ShloMosaic Cert.ReferenceIdeal

variable {F : FTy → Type} [FloatOps F] [Facts]
open Facts₀ Facts

/-- The expert ids, token-major: slot `2t + k` is token `t`'s `k`-th choice. -/
def flat (ids : IVec S8192x2 32) : IVec S16384 32 := shapeCast S16384 ids shapeCasts_S8192x2_S16384

/-- A scalar word repeated over the 16384 slots. -/
def splat (c : BitVec 32) : IVec S16384 32 := broadcastInDim S16384 ![] bcast_S_S16384 (constantI S_ 32 c)

/-- An index counted from the end made absolute: `i + n` where `i < 0`, else `i`. -/
def wrap (n : BitVec 32) (i : IVec S16384 32) : IVec S16384 32 :=
  select (cmpi .slt i (splat 0#32)) (addi i (splat n)) i

/-- A list of slot words as a one-column table of start indices. -/
def col (i : IVec S16384 32) : IVec S16384x1 32 := broadcastInDim S16384x1 ![0] bcast_S16384_S16384x1_0 i

/-- The ids with the negative ones raised to zero. -/
def clipped (ids : IVec S8192x2 32) : IVec S16384 32 :=
  maxsi (broadcastInDim S16384 ![] bcast_S_S16384 (id (constantI S_ 32 0#32))) (flat ids)

/-- The count of slots per expert: ones added into eight zeros at the clipped ids. -/
def refHist (ids : IVec S8192x2 32) : IVec S8 32 :=
  Host.scatter scatter_S8_S16384x1_S16384_n_0_0_1 IntOp.addi
    (broadcastInDim S8 ![] bcast_S_S8 (constantI S_ 32 0#32)) (col (wrap 8#32 (clipped ids))) (splat 1#32)

/-- The slots in the stable order of their expert ids: position `j` holds the slot that comes `j`-th. -/
def order (ids : IVec S8192x2 32) : IVec S16384 32 :=
  (Host.sort2 S16384 0 comparator_i32_i32_d0 (flat ids) (iotaInDim S16384 32 0)).2

/-- The scores, token-major like the ids. -/
def sflat (s : FVec F S8192x2 .f32) : FVec F S16384 .f32 := shapeCast S16384 s shapeCasts_S8192x2_S16384

/-- The scores in the sorted order of the slots. -/
def scoreSorted (s : FVec F S8192x2 .f32) (ids : IVec S8192x2 32) : FVec F S16384 .f32 :=
  Host.gather gather_S16384_S16384x1_S16384_n_0_n_n_0_1_1 (sflat s) (col (wrap 16384#32 (order ids)))

/-- The floor of a slot word over two, as the program spells it: the truncated quotient, less one where the signs
    differ and the remainder is not zero. -/
def half (o : IVec S16384 32) : IVec S16384 32 :=
  let two : IVec S_ 32 := id (constantI S_ 32 2#32)
  let q := Host.divsi o (broadcastInDim S16384 ![] bcast_S_S16384 two)
  select
    (andi (cmpi .ne (signi o) (broadcastInDim S16384 ![] bcast_S_S16384 (signi two)))
      (cmpi .ne (Host.remsi o (broadcastInDim S16384 ![] bcast_S_S16384 two)) (splat 0#32)))
    (subi q (splat 1#32)) q

/-- The token of each sorted slot. -/
def token (ids : IVec S8192x2 32) : IVec S16384 32 := half (order ids)

/-- Row `j`: the features of sorted slot `j`'s token times that slot's score. -/
def routed (x : FVec F S8192x2048 .f32) (s : FVec F S8192x2 .f32) (ids : IVec S8192x2 32) : FVec F S16384x2048 .f32 :=
  mulf (Host.gather gather_S8192x2048_S16384x1_S16384x2048_1_0_n_n_0_1_12048 x (col (wrap 8192#32 (token ids))))
    (broadcastInDim S16384x2048 ![0, 1] bcast_S16384x1_S16384x2048_0_1
      (broadcastInDim S16384x1 ![0] bcast_S16384_S16384x1_0 (scoreSorted s ids)))

/-- The combined output: the routed rows added back into zeros at their tokens. -/
def refOut (x : FVec F S8192x2048 .f32) (s : FVec F S8192x2 .f32) (ids : IVec S8192x2 32) : FVec F S8192x2048 .f32 :=
  Host.scatterAdd scatter_S8192x2048_S16384x1_S16384x2048_1_0_0_1
    (broadcastInDim S8192x2048 ![] bcast_S_S8192x2048 (constant S_ .f32 0x00000000#32))
    (col (wrap 8192#32 (token ids))) (routed x s ids)

end Cert.ReferenceIdeal.Terms

end
-- ==== Proof.RefRun.lean ====
/-
  The reference program's run. Its @main is a straight line of seventy-two host operations once the three outlined
  functions (the clip of the ids, the stable argsort, the floor division by two with its inner select) are written in
  place at their calls, each over the buffers its call names. From any memory with zero counters every weakly fair
  execution ends with each buffer at the fold of those operations over the launch contents; read at the two result
  buffers, the fold is the pair of pure terms `Terms.refOut` and `Terms.refHist` of the three arguments, and at the
  argument buffers it is what was there, since no operation writes them.
-/
import proofs.«415601_j22874995818748_3_alg».proof.Proof.Gen.ReferenceIdeal
import proofs.«415601_j22874995818748_3_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main in program order: its own, and at each call the callee's over that call's buffers
    (the clip's three after the fourth, the argsort's three after the scatter of ones, the floor division's sixteen
    and its select after the constant two). -/
abbrev ops : List (HloOp τ sig (Elt F)) :=
  [ reshape main_arg2 main_v0 rfl shapeCasts_S8192x2_S16384,
    nullary main_c (constantI S_ 32 0#32),
    unary main_c main_v1 (broadcastInDim S8 ![] bcast_S_S8 : (⟨S_, .i32⟩ : BufTy).Contents (Elt F) → (⟨S8, .i32⟩ : BufTy).Contents (Elt F)),
    nullary main_c_0 (constantI S_ 32 0#32),
    TRef.unary (.of main_c_0) main_call0.v0 id,
    TRef.unary main_call0.v0 main_call0.v1 (broadcastInDim S16384 ![] bcast_S_S16384),
    TRef.binary main_call0.v1 (.of main_v0) main_call0.v2 maxsi,
    nullary main_c_1 (constantI S_ 32 0#32),
    unary main_c_1 main_v3 (broadcastInDim S16384 ![] bcast_S_S16384 : (⟨S_, .i32⟩ : BufTy).Contents (Elt F) → (⟨S16384, .i32⟩ : BufTy).Contents (Elt F)),
    binary main_v2 main_v3 main_v4 (cmpi .slt : (⟨S16384, .i32⟩ : BufTy).Contents (Elt F) → (⟨S16384, .i32⟩ : BufTy).Contents (Elt F) → (⟨S16384, .i1⟩ : BufTy).Contents (Elt F)),
    nullary main_c_2 (constantI S_ 32 8#32),
    unary main_c_2 main_v5 (broadcastInDim S16384 ![] bcast_S_S16384 : (⟨S_, .i32⟩ : BufTy).Contents (Elt F) → (⟨S16384, .i32⟩ : BufTy).Contents (Elt F)),
    binary main_v2 main_v5 main_v6 (addi : (⟨S16384, .i32⟩ : BufTy).Contents (Elt F) → (⟨S16384, .i32⟩ : BufTy).Contents (Elt F) → (⟨S16384, .i32⟩ : BufTy).Contents (Elt F)),
    ternary main_v4 main_v6 main_v2 main_v7 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v7 main_v8 (broadcastInDim S16384x1 ![0] bcast_S16384_S16384x1_0 : (⟨S16384, .i32⟩ : BufTy).Contents (Elt F) → (⟨S16384x1, .i32⟩ : BufTy).Contents (Elt F)),
    nullary main_c_3 (constantI S_ 32 1#32),
    unary main_c_3 main_v9 (broadcastInDim S16384 ![] bcast_S_S16384 : (⟨S_, .i32⟩ : BufTy).Contents (Elt F) → (⟨S16384, .i32⟩ : BufTy).Contents (Elt F)),
    ternary main_v1 main_v8 main_v9 main_v10 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)),
    TRef.nullary main_call1.v0 (iotaInDim S16384 32 0),
    TRef.binary (.of main_v0) main_call1.v0 main_call1.v1_0 (fun x y => (Host.sort2 S16384 0 comparator_i32_i32_d0 x y).1),
    TRef.binary (.of main_v0) main_call1.v0 main_call1.v1_1 (fun x y => (Host.sort2 S16384 0 comparator_i32_i32_d0 x y).2),
    reshape main_arg1 main_v12 rfl shapeCasts_S8192x2_S16384,
    nullary main_c_4 (constantI S_ 32 0#32),
    unary main_c_4 main_v13 (broadcastInDim S16384 ![] bcast_S_S16384 : (⟨S_, .i32⟩ : BufTy).Contents (Elt F) → (⟨S16384, .i32⟩ : BufTy).Contents (Elt F)),
    binary main_v11 main_v13 main_v14 (cmpi .slt : (⟨S16384, .i32⟩ : BufTy).Contents (Elt F) → (⟨S16384, .i32⟩ : BufTy).Contents (Elt F) → (⟨S16384, .i1⟩ : BufTy).Contents (Elt F)),
    nullary main_c_5 (constantI S_ 32 16384#32),
    unary main_c_5 main_v15 (broadcastInDim S16384 ![] bcast_S_S16384 : (⟨S_, .i32⟩ : BufTy).Contents (Elt F) → (⟨S16384, .i32⟩ : BufTy).Contents (Elt F)),
    binary main_v11 main_v15 main_v16 (addi : (⟨S16384, .i32⟩ : BufTy).Contents (Elt F) → (⟨S16384, .i32⟩ : BufTy).Contents (Elt F) → (⟨S16384, .i32⟩ : BufTy).Contents (Elt F)),
    ternary main_v14 main_v16 main_v11 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v17 main_v18 (broadcastInDim S16384x1 ![0] bcast_S16384_S16384x1_0 : (⟨S16384, .i32⟩ : BufTy).Contents (Elt F) → (⟨S16384x1, .i32⟩ : BufTy).Contents (Elt F)),
    binary main_v12 main_v18 main_v19 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)),
    nullary main_c_6 (constantI S_ 32 2#32),
    TRef.unary (.of main_c_6) main_call2.v0 id,
    TRef.unary main_call2.v0 main_call2.v1 (broadcastInDim S16384 ![] bcast_S_S16384),
    TRef.binary (.of main_v11) main_call2.v1 main_call2.v2 Host.divsi,
    TRef.unary (.of main_v11) main_call2.v3 signi,
    TRef.unary main_call2.v0 main_call2.v4 signi,
    TRef.unary main_call2.v4 main_call2.v5 (broadcastInDim S16384 ![] bcast_S_S16384),
    TRef.binary main_call2.v3 main_call2.v5 main_call2.v6 (cmpi .ne),
    TRef.unary main_call2.v0 main_call2.v7 (broadcastInDim S16384 ![] bcast_S_S16384),
    TRef.binary (.of main_v11) main_call2.v7 main_call2.v8 Host.remsi,
    TRef.nullary main_call2.c (constantI S_ 32 0#32),
    TRef.unary main_call2.c main_call2.v9 (broadcastInDim S16384 ![] bcast_S_S16384),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S16384 ![] bcast_S_S16384),
    TRef.binary main_call2.v2 main_call2.v12 main_call2.v13 subi,
    TRef.ternary main_call2.v11 main_call2.v13 main_call2.v2 main_call2.call0.v0 select,
    nullary main_c_7 (constantI S_ 32 0#32),
    unary main_c_7 main_v21 (broadcastInDim S16384 ![] bcast_S_S16384 : (⟨S_, .i32⟩ : BufTy).Contents (Elt F) → (⟨S16384, .i32⟩ : BufTy).Contents (Elt F)),
    binary main_v20 main_v21 main_v22 (cmpi .slt : (⟨S16384, .i32⟩ : BufTy).Contents (Elt F) → (⟨S16384, .i32⟩ : BufTy).Contents (Elt F) → (⟨S16384, .i1⟩ : BufTy).Contents (Elt F)),
    nullary main_c_8 (constantI S_ 32 8192#32),
    unary main_c_8 main_v23 (broadcastInDim S16384 ![] bcast_S_S16384 : (⟨S_, .i32⟩ : BufTy).Contents (Elt F) → (⟨S16384, .i32⟩ : BufTy).Contents (Elt F)),
    binary main_v20 main_v23 main_v24 (addi : (⟨S16384, .i32⟩ : BufTy).Contents (Elt F) → (⟨S16384, .i32⟩ : BufTy).Contents (Elt F) → (⟨S16384, .i32⟩ : BufTy).Contents (Elt F)),
    ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v25 main_v26 (broadcastInDim S16384x1 ![0] bcast_S16384_S16384x1_0 : (⟨S16384, .i32⟩ : BufTy).Contents (Elt F) → (⟨S16384x1, .i32⟩ : BufTy).Contents (Elt F)),
    binary main_arg0 main_v26 main_v27 ((fun x i => Host.gather gather_S8192x2048_S16384x1_S16384x2048_1_0_n_n_0_1_12048 x i) : (⟨S8192x2048, .f32⟩ : BufTy).Contents (Elt F) → (⟨S16384x1, .i32⟩ : BufTy).Contents (Elt F) → (⟨S16384x2048, .f32⟩ : BufTy).Contents (Elt F)),
    unary main_v19 main_v28 (broadcastInDim S16384x1 ![0] bcast_S16384_S16384x1_0 : (⟨S16384, .f32⟩ : BufTy).Contents (Elt F) → (⟨S16384x1, .f32⟩ : BufTy).Contents (Elt F)),
    unary main_v28 main_v29 (broadcastInDim S16384x2048 ![0, 1] bcast_S16384x1_S16384x2048_0_1 : (⟨S16384x1, .f32⟩ : BufTy).Contents (Elt F) → (⟨S16384x2048, .f32⟩ : BufTy).Contents (Elt F)),
    binary main_v27 main_v29 main_v30 (mulf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x00000000#32),
    unary main_cst main_v31 (broadcastInDim S8192x2048 ![] bcast_S_S8192x2048 : (⟨S_, .f32⟩ : BufTy).Contents (Elt F) → (⟨S8192x2048, .f32⟩ : BufTy).Contents (Elt F)),
    nullary main_c_9 (constantI S_ 32 0#32),
    unary main_c_9 main_v32 (broadcastInDim S16384 ![] bcast_S_S16384 : (⟨S_, .i32⟩ : BufTy).Contents (Elt F) → (⟨S16384, .i32⟩ : BufTy).Contents (Elt F)),
    binary main_v20 main_v32 main_v33 (cmpi .slt : (⟨S16384, .i32⟩ : BufTy).Contents (Elt F) → (⟨S16384, .i32⟩ : BufTy).Contents (Elt F) → (⟨S16384, .i1⟩ : BufTy).Contents (Elt F)),
    nullary main_c_10 (constantI S_ 32 8192#32),
    unary main_c_10 main_v34 (broadcastInDim S16384 ![] bcast_S_S16384 : (⟨S_, .i32⟩ : BufTy).Contents (Elt F) → (⟨S16384, .i32⟩ : BufTy).Contents (Elt F)),
    binary main_v20 main_v34 main_v35 (addi : (⟨S16384, .i32⟩ : BufTy).Contents (Elt F) → (⟨S16384, .i32⟩ : BufTy).Contents (Elt F) → (⟨S16384, .i32⟩ : BufTy).Contents (Elt F)),
    ternary main_v33 main_v35 main_v20 main_v36 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v36 main_v37 (broadcastInDim S16384x1 ![0] bcast_S16384_S16384x1_0 : (⟨S16384, .i32⟩ : BufTy).Contents (Elt F) → (⟨S16384x1, .i32⟩ : BufTy).Contents (Elt F)),
    ternary main_v31 main_v37 main_v30 main_v38 ((fun x i u => Host.scatterAdd scatter_S8192x2048_S16384x1_S16384x2048_1_0_0_1 x i u) : (⟨S8192x2048, .f32⟩ : BufTy).Contents (Elt F) → (⟨S16384x1, .i32⟩ : BufTy).Contents (Elt F) → (⟨S16384x2048, .f32⟩ : BufTy).Contents (Elt F) → (⟨S8192x2048, .f32⟩ : BufTy).Contents (Elt F)) ]

set_option maxRecDepth 8192 in
/-- @main is that line: a bind of a step continued by nothing is the step continued by what follows, so with the
    callees' bodies opened at their calls both sides compute to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨reshape_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., binary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..⟩

attribute [local irreducible] Host.sort2 Host.scatter Host.scatterAdd Host.gather Host.divsi Host.remsi in
set_option maxRecDepth 8192 in
/-- The fold read at the count's buffer: eight zeros, the one-column table of the clipped ids (wrapped as indices
    into eight), ones, and the scatter that adds them. Each buffer on the way is written once, so its contents are
    its operation's function of its operands' contents; the casts the callees' typed references carry are the
    identity at these buffers. The sort, the scatters, the gathers and the division stay folded: the equation never
    looks inside them. -/
theorem hist_eq (V : Valuation τ sig (Elt F)) :
    after ops V (main_v10 : DevRef τ sig) = Terms.refHist (V (main_arg2 : DevRef τ sig)) := by
  after_results_simp
  simp only [Terms.refHist, Terms.clipped, Terms.col, Terms.wrap, Terms.splat, Terms.flat]
  rfl

attribute [local irreducible] Host.sort2 Host.scatter Host.scatterAdd Host.gather Host.divsi Host.remsi in
set_option maxRecDepth 8192 in
/-- The fold read at the output's buffer: zeros, the one-column table of the tokens of the sorted slots, and the rows
    gathered at those tokens times the scores gathered in the sorted order, added back by the scatter. The token table
    is computed twice by the program (once for the gather, once for the scatter) to the same term. -/
theorem out_eq (V : Valuation τ sig (Elt F)) :
    after ops V (main_v38 : DevRef τ sig)
      = Terms.refOut (V (main_arg0 : DevRef τ sig)) (V (main_arg1 : DevRef τ sig)) (V (main_arg2 : DevRef τ sig)) := by
  after_results_simp
  simp only [Terms.refOut, Terms.routed, Terms.token, Terms.half, Terms.scoreSorted, Terms.sflat, Terms.order,
    Terms.col, Terms.wrap, Terms.splat, Terms.flat]
  rfl

/-- No operation writes an argument's buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp

/-- On every device, for any float values, from any memory with zero counters: every weakly fair execution of @main
    terminates with the output at `Terms.refOut` and the count at `Terms.refHist` of the arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Terms.refOut (m ((c.tc : Thread nD τ).loc main_arg0)) (m ((c.tc : Thread nD τ).loc main_arg1)) (m ((c.tc : Thread nD τ).loc main_arg2))
      ∧ r.2.mem ((c.tc : Thread nD τ).loc main_v10) = Terms.refHist (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (out_eq (launchContents m c)),
      (h c main_v10).trans (hist_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.RefIndex.lean ====
/-
  The reference's integer chain read at one sorted slot.

  The stable sort of the 16384 slot ids carries an iota, so what it returns second is, at position `n`, the
  number of the slot that comes `n`-th: a self-map `slotOf` of the positions, a bijection whatever the ids are.
  From it the program derives three columns of start indices, each a small non-negative word, so that the
  "count from the end" correction leaves it alone: the slot itself (for the scores), and its half (the token,
  for the rows of `x` and for the places the products are added back to).
-/
import proofs.«415601_j22874995818748_3_alg».proof.Proof.RefTerms
import proofs.«415601_j22874995818748_3_alg».proof.Proof.LibIndexRange
import Idealize.ShloMosaic.Lib.ValueIdx
import Idealize.ShloMosaic.Lib.ValueIdxRank1
import Idealize.ShloMosaic.Lib.StableHlo.Predicate
import Idealize.ShloMosaic.Lib.SortFacts
import Idealize.ShloMosaic.Lib.Affine

noncomputable section

namespace Cert.RefIndex

open Idealize.ShloMosaic Idealize.ShloMosaic.ValueIdx Cert.ReferenceIdeal Cert.ReferenceIdeal.Terms

variable [Facts]
open Facts₀ Facts

/-! ## The sort as a bijection of the positions -/

/-- "Slot `k` sorts strictly before slot `k'`": the comparator on the two (id, slot number) pairs. -/
def before (ids : IVec S8192x2 32) (k k' : Fin 16384) : Bool :=
  comparator_i32_i32_d0 (flat ids (ix1 k), iotaInDim S16384 32 0 (ix1 k))
    (flat ids (ix1 k'), iotaInDim S16384 32 0 (ix1 k')) == 1#1

/-- The slot that comes `n`-th in the stable order of the ids. -/
def slotOf (ids : IVec S8192x2 32) (n : Fin 16384) : Fin 16384 := sortedFrom (before ids) n

theorem slotOf_bijective (ids : IVec S8192x2 32) : Function.Bijective (slotOf ids) :=
  ⟨sortedFrom_injective _, sortedFrom_surjective _⟩

/-- Replacing the one coordinate of a rank-1 index gives the index of the new coordinate. -/
theorem along_ix1 {n : Nat} (j : (⟨1, ![n]⟩ : Shape).Idx) (h : 0 < (⟨1, ![n]⟩ : Shape).rank)
    (k : Fin ((⟨1, ![n]⟩ : Shape).size ⟨0, h⟩)) :
    Shape.Idx.along j ⟨0, h⟩ k = ix1 (n := n) k := by
  funext a
  obtain rfl : a = ⟨0, h⟩ := Subsingleton.elim _ _
  exact Function.update_self _ _ _

/-- A two-operand sort of a rank-1 array, read second at position `k`: the second operand at the position the
    stable order of the pairs puts `k`-th. -/
theorem sort2_snd_rank1 {α β : Type} {n : Nat} (cmp : α × β → α × β → BitVec 1)
    (x : (⟨1, ![n]⟩ : Shape).Idx → α) (y : (⟨1, ![n]⟩ : Shape).Idx → β) (k : Fin n) :
    (Host.sort2 ⟨1, ![n]⟩ 0 cmp x y).2 (ix1 k)
      = y (ix1 (sortedFrom (fun a b : Fin n => cmp (x (ix1 a), y (ix1 a)) (x (ix1 b), y (ix1 b)) == 1#1) k)) := by
  unfold Host.sort2
  rw [dif_pos (show 0 < (⟨1, ![n]⟩ : Shape).rank from Nat.one_pos)]
  dsimp only
  simp only [along_ix1]
  rfl

/-- The sorted slot numbers: position `n` holds the number of the slot that comes `n`-th. -/
theorem order_apply (ids : IVec S8192x2 32) (n : Fin 16384) :
    order ids (ix1 n) = BitVec.ofNat 32 (slotOf ids n).val :=
  sort2_snd_rank1 comparator_i32_i32_d0 (flat ids) (iotaInDim S16384 32 0) n

/-! ## Halving a small word -/

/-- A word below `2^31` halved by the program's signed division is the half of its value. -/
theorem divsi_two_ofNat (p : Nat) (hp : p < 2 ^ 31) :
    IntOp.divsi .host (BitVec.ofNat 32 p) 2#32 = BitVec.ofNat 32 (p / 2) := by
  apply BitVec.eq_of_toNat_eq
  rw [StableHlo.Predicate.divsi_two .host _ (by rw [BitVec.toNat_ofNat]; omega)]
  simp only [BitVec.toNat_ofNat]
  omega

/-- The program's floor division by two, at a slot whose word is small and non-negative, is the truncated
    quotient: the correction "less one where the signs differ and the remainder is not zero" never applies, the
    sign of such a word being `0` (and then the remainder is `0`) or `1`, the sign of two. -/
theorem half_apply (o : IVec S16384 32) (j : S16384.Idx) (hw : (o j).toNat < 2 ^ 31) :
    half o j = IntOp.divsi .host (o j) 2#32 := by
  unfold half
  simp only [select, andi, cmpi, signi, Host.divsi, Host.remsi, subi, splat, broadcastInDim, constantI, id]
  generalize o j = w at hw ⊢
  have hc : IntOp.andi
      (IntOp.cmpi .ne (if w = 0 then (0 : BitVec 32) else if w.msb = true then -1 else 1)
        (if (2#32 : BitVec 32) = 0 then (0 : BitVec 32) else if (2#32 : BitVec 32).msb = true then -1 else 1))
      (IntOp.cmpi .ne (IntOp.remsi .host w 2#32) 0#32) = 0#1 := by
    by_cases h0 : w = 0
    · have hr : IntOp.remsi .host w 2#32 = 0#32 := by
        subst h0
        exact (IntOp.remsi_eq_zero_iff .host (by decide) 2 (by decide) (by decide)).mpr (by decide)
      rw [hr]
      generalize IntOp.cmpi .ne (if w = 0 then (0 : BitVec 32) else if w.msb = true then -1 else 1)
        (if (2#32 : BitVec 32) = 0 then (0 : BitVec 32) else if (2#32 : BitVec 32).msb = true then -1 else 1) = c
      revert c; decide
    · have hm : w.msb = false := BitVec.msb_eq_false_iff_two_mul_lt.mpr (by omega)
      rw [if_neg h0, hm]
      generalize IntOp.cmpi .ne (IntOp.remsi .host w 2#32) 0#32 = c
      revert c; decide
  have key : ∀ (c : BitVec 1) (a b : BitVec 32), c = 0#1 → Scalar.select c a b = b := by
    intro c a b h; subst h; exact if_neg (by decide)
  exact key _ _ _ hc

/-- The token of the slot that comes `n`-th: half its number. -/
theorem token_apply (ids : IVec S8192x2 32) (n : Fin 16384) :
    token ids (ix1 n) = BitVec.ofNat 32 ((slotOf ids n).val / 2) := by
  have hlt : (slotOf ids n).val < 16384 := (slotOf ids n).isLt
  unfold token
  rw [half_apply _ _ (by rw [order_apply, BitVec.toNat_ofNat]; omega), order_apply]
  exact divsi_two_ofNat _ (by omega)

/-! ## The start-index columns -/

/-- "Count from the end if negative" leaves a non-negative word alone. -/
theorem wrap_apply (c : BitVec 32) (v : IVec S16384 32) (j : S16384.Idx) (h : 0 ≤ (v j).toInt) :
    wrap c v j = v j :=
  IndexRange.select_wrap_eq c h

/-- A list as a one-column table, read at row `n`. -/
theorem col_apply {α : Type} (v : S16384.Idx → α) (n : Fin 16384) :
    broadcastInDim S16384x1 ![0] bcast_S16384_S16384x1_0 v (ix2 n (0 : Fin 1)) = v (ix1 n) := by
  unfold broadcastInDim
  congr 1
  funext a
  obtain rfl : a = 0 := Subsingleton.elim _ _
  rw [dif_neg (by show ¬ (16384 : ℕ) = 1; decide)]
  rfl

/-- A one-column table repeated along 2048 columns, read at `(n, d)`. -/
theorem cols_apply {α : Type} (v : S16384x1.Idx → α) (n : Fin 16384) (d : Fin 2048) :
    broadcastInDim S16384x2048 ![0, 1] bcast_S16384x1_S16384x2048_0_1 v (ix2 n d) = v (ix2 n (0 : Fin 1)) := by
  unfold broadcastInDim
  congr 1
  funext a
  match a with
  | ⟨0, _⟩ => rw [dif_neg (by show ¬ (16384 : ℕ) = 1; decide)]; rfl
  | ⟨1, h⟩ => rw [dif_pos (show S16384x1.size ⟨1, h⟩ = 1 from rfl)]; rfl

/-- The signed value of a small word is its value. -/
theorem toInt_ofNat_lt (p : Nat) (hp : p < 2 ^ 31) : (BitVec.ofNat 32 p).toInt = (p : ℤ) :=
  StableHlo.Predicate.toInt_ofNat_small p hp

/-- The start index for the scores at position `n`: the slot's number. -/
theorem scoreIdx_apply (ids : IVec S8192x2 32) (n : Fin 16384) :
    col (wrap 16384#32 (order ids)) (ix2 n (0 : Fin 1)) = BitVec.ofNat 32 (slotOf ids n).val := by
  have hlt : (slotOf ids n).val < 16384 := (slotOf ids n).isLt
  unfold col
  rw [col_apply, wrap_apply _ _ _ (by rw [order_apply, toInt_ofNat_lt _ (by omega)]; omega), order_apply]

/-- The start index for the rows of `x`, and for the places added back to, at position `n`: the slot's token. -/
theorem tokenIdx_apply (ids : IVec S8192x2 32) (n : Fin 16384) :
    col (wrap 8192#32 (token ids)) (ix2 n (0 : Fin 1)) = BitVec.ofNat 32 ((slotOf ids n).val / 2) := by
  have hlt : (slotOf ids n).val < 16384 := (slotOf ids n).isLt
  unfold col
  rw [col_apply, wrap_apply _ _ _ (by rw [token_apply, toInt_ofNat_lt _ (by omega)]; omega), token_apply]

end Cert.RefIndex

end
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.LibTakeElems.lean ====
/-
  The shape of `stablehlo.gather` that indexing a flat array by an integer vector lowers to, read at one result index.

  ELEMENTS OF A VECTOR (`x[idx]` of `x : [N]` at `n` positions, the start indices an `[n, 1]` column): result element
  `i` is the operand's element `r`, where `r` is the start index of position `i` read signed and clamped into
  `[0, N - 1]`. The operand's one axis is collapsed, so the result has no offset axis.

  The dimension numbers are spelt field by field as a printed program's record is, so that record is one of these by `rfl`.
-/
import Idealize.ShloMosaic.Lib.ValueIdx

namespace Idealize.ShloMosaic.TakeElems

open Idealize.ShloMosaic Idealize.ShloMosaic.ValueIdx

variable {α : Type}

/-- The dimension numbers of an element take: operand `[N]`, start indices `[n, 1]`, result `[n]`. -/
abbrev elemDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- An element take read at `i`: the operand at the clamped start index of position `i`. -/
theorem elemTake_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (i : Fin n) :
    Host.gather (elemDims N n wf) x idx (ix1 i)
      = x (ix1 ⟨min (idx (ix2 i (0 : Fin 1))).toInt.toNat (N - 1), by omega⟩) := by
  unfold Host.gather
  congr 1
  funext a
  obtain rfl : a = 0 := Subsingleton.elim _ _
  refine Fin.ext ?_
  show (elemDims N n wf).start (ix1 i) idx 0 + (elemDims N n wf).batchCoord (ix1 i) 0
    + (elemDims N n wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N n wf).startIndexMap from List.mem_singleton.mpr rfl)]
  have hsi : (elemDims N n wf).siIdx (ix1 i) ⟨List.idxOf (0 : Fin 1) (elemDims N n wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

end Idealize.ShloMosaic.TakeElems
-- ==== Proof.RefOut.lean ====
/-
  The reference's combined output is `x[t, d] · (s[t, 0] + s[t, 1])`, for finite `x` and `s` and whatever the ids.

  Read at `(t, d)`, the scatter-add leaves zero plus the sum, over the sorted positions `n` whose token is `t`, of
  `x[token n, d] · score(slot n)`. The slot of position `n` runs through all 16384 slots exactly once (the sort is a
  bijection of the positions), so the sum is over the slots `k` with `k / 2 = t`: the two slots `2t` and `2t + 1`,
  whose scores are `s[t, 0]` and `s[t, 1]`. On finite values `x·a + x·b = x·(a + b)`.
-/
import proofs.«415601_j22874995818748_3_alg».proof.Proof.RefIndex
import proofs.«415601_j22874995818748_3_alg».proof.Proof.LibSegmentScatter
import proofs.«415601_j22874995818748_3_alg».proof.Proof.LibTakeRows
import proofs.«415601_j22874995818748_3_alg».proof.Proof.LibTakeElems
import proofs.«415601_j22874995818748_3_alg».proof.Proof.Spec
import Idealize.ShloMosaic.PureOps.Ideal.Laws
import Idealize.ShloMosaic.Lib.Pipeline.Value

noncomputable section

namespace Cert.RefOut

open Idealize.ShloMosaic Idealize.ShloMosaic.ValueIdx Cert.ReferenceIdeal Cert.ReferenceIdeal.Terms Cert.RefIndex

variable [Facts]
open Facts₀ Facts

/-- Slot `k`'s token and choice as an index of the scores. -/
abbrev slotIdx (k : Fin 16384) : S8192x2.Idx := ix2 (⟨k.val / 2, by omega⟩ : Fin 8192) (⟨k.val % 2, by omega⟩ : Fin 2)

/-- Slot `k`'s token. -/
abbrev tokenOf (k : Fin 16384) : Fin 8192 := ⟨k.val / 2, by omega⟩

/-! ## Each stage read at an index -/

/-- The flattened scores at slot `k`: token `k / 2`'s choice `k % 2`. -/
theorem sflat_apply (s : S8192x2.Idx → EReal) (k : Fin 16384) : sflat (F := Ideal) s (ix1 k) = s (slotIdx k) := by
  unfold sflat
  refine shapeCast_apply _ _ _ _ ?_
  rw [Shape.rowMajor_val_two, Shape.rowMajor_val_one]
  show k.val / 2 * 2 + k.val % 2 = k.val
  omega

/-- The score at sorted position `n`: that of the slot that comes `n`-th. -/
theorem scoreSorted_apply (s : S8192x2.Idx → EReal) (ids : IVec S8192x2 32) (n : Fin 16384) :
    scoreSorted (F := Ideal) s ids (ix1 n) = s (slotIdx (slotOf ids n)) := by
  have hlt : (slotOf ids n).val < 16384 := (slotOf ids n).isLt
  unfold scoreSorted
  refine (TakeElems.elemTake_apply (N := 16384) (n := 16384) (by decide)
    gather_S16384_S16384x1_S16384_n_0_n_n_0_1_1_wf (sflat (F := Ideal) s) _ n).trans ?_
  refine (congrArg (fun q : Fin 16384 => sflat (F := Ideal) s (ix1 q)) (Fin.ext ?_)).trans (sflat_apply s _)
  show min (col (wrap 16384#32 (order ids)) (ix2 n (0 : Fin 1))).toInt.toNat (16384 - 1) = (slotOf ids n).val
  rw [scoreIdx_apply, toInt_ofNat_lt _ (by omega)]
  omega

/-- Row `n` of the routed products: the features of the `n`-th slot's token times that slot's score. -/
theorem routed_apply (x : S8192x2048.Idx → EReal) (s : S8192x2.Idx → EReal) (ids : IVec S8192x2 32)
    (n : Fin 16384) (d : Fin 2048) :
    routed (F := Ideal) x s ids (ix2 n d) = x (ix2 (tokenOf (slotOf ids n)) d) * s (slotIdx (slotOf ids n)) := by
  have hlt : (slotOf ids n).val < 16384 := (slotOf ids n).isLt
  unfold routed
  show (Host.gather gather_S8192x2048_S16384x1_S16384x2048_1_0_n_n_0_1_12048 x (col (wrap 8192#32 (token ids))) (ix2 n d) : EReal)
      * broadcastInDim S16384x2048 ![0, 1] bcast_S16384x1_S16384x2048_0_1
          (broadcastInDim S16384x1 ![0] bcast_S16384_S16384x1_0 (scoreSorted (F := Ideal) s ids)) (ix2 n d) = _
  rw [cols_apply, col_apply, scoreSorted_apply]
  refine congrArg (· * s (slotIdx (slotOf ids n))) ?_
  refine (TakeRows.rowTake_apply (N := 8192) (D := 2048) (n := 16384) (by decide)
    gather_S8192x2048_S16384x1_S16384x2048_1_0_n_n_0_1_12048_wf x _ n d).trans ?_
  refine congrArg (fun q : Fin 8192 => x (ix2 q d)) (Fin.ext ?_)
  show min (col (wrap 8192#32 (token ids)) (ix2 n (0 : Fin 1))).toInt.toNat (8192 - 1) = (slotOf ids n).val / 2
  rw [tokenIdx_apply, toInt_ofNat_lt _ (by omega)]
  omega

/-- The combined output at `(t, d)`: zero plus the routed products of the positions whose token is `t`. -/
theorem refOut_apply (x : S8192x2048.Idx → EReal) (s : S8192x2.Idx → EReal) (ids : IVec S8192x2 32)
    (t : Fin 8192) (d : Fin 2048) :
    refOut (F := Ideal) x s ids (ix2 t d)
      = 0 + ∑ n : Fin 16384, if (slotOf ids n).val / 2 = t.val
          then x (ix2 (tokenOf (slotOf ids n)) d) * s (slotIdx (slotOf ids n)) else 0 := by
  unfold refOut Host.scatterAdd
  rw [Ideal.hostScatterAdd_def]
  refine (SegmentScatter.rowScatterAdd_apply (B := 8192) (D := 2048) (N := 16384)
    scatter_S8192x2048_S16384x1_S16384x2048_1_0_0_1_wf _ _ _ t d).trans ?_
  refine congrArg₂ (· + ·) ?_ ?_
  · show Ideal.ofBits .f32 0x00000000#32 = 0
    exact Ideal.ofBits_zero_f32
  · refine Finset.sum_congr rfl fun n _ => ?_
    have hlt : (slotOf ids n).val < 16384 := (slotOf ids n).isLt
    rw [tokenIdx_apply, toInt_ofNat_lt _ (by omega), routed_apply]
    by_cases h : (slotOf ids n).val / 2 = t.val
    · rw [if_pos h, if_pos (by exact_mod_cast h)]
    · rw [if_neg h, if_neg (by exact_mod_cast h)]

/-! ## The sum over the slots of one token -/

/-- A function of the slots that vanishes off token `t`'s two slots sums to its values at `2t` and `2t + 1`. -/
theorem sum_slots (t : Fin 8192) (g : Fin 16384 → EReal) (h0 : ∀ k : Fin 16384, k.val / 2 ≠ t.val → g k = 0) :
    ∑ k, g k = g ⟨2 * t.val, by omega⟩ + g ⟨2 * t.val + 1, by omega⟩ := by
  refine Fintype.sum_eq_add _ _ (fun h => ?_) (fun k hk => h0 k fun hk2 => ?_)
  · have := congrArg Fin.val h
    simp only at this
    omega
  · have h1 : k.val ≠ 2 * t.val := fun e => hk.1 (Fin.ext e)
    have h2 : k.val ≠ 2 * t.val + 1 := fun e => hk.2 (Fin.ext e)
    omega

theorem ix2_congr {a a' : Fin 8192} {b b' : Fin 2} (ha : a = a') (hb : b = b') :
    (ix2 a b : S8192x2.Idx) = ix2 a' b' := by subst ha; subst hb; rfl

/-- THE REFERENCE'S OUTPUT: for finite features and scores, whatever the ids, row `t` of `x` times the sum of
    token `t`'s two scores. -/
theorem refOut_eq (x : S8192x2048.Idx → EReal) (s : S8192x2.Idx → EReal) (ids : IVec S8192x2 32)
    (hx : ∀ i, ∃ r : ℝ, x i = (r : EReal)) (hs : ∀ i, ∃ r : ℝ, s i = (r : EReal)) :
    refOut (F := Ideal) x s ids = Cert.Spec.outSpec x s := by
  funext i
  obtain ⟨t, d, rfl⟩ : ∃ (t : Fin 8192) (d : Fin 2048), i = ix2 t d := ⟨i 0, i 1, eq_ix2 i⟩
  rw [refOut_apply, Cert.Spec.outSpec_apply]
  -- the sorted positions run through the slots once each
  have hperm := Equiv.sum_comp (Equiv.ofBijective (slotOf ids) (slotOf_bijective ids))
    (fun k : Fin 16384 => if k.val / 2 = t.val then x (ix2 (tokenOf k) d) * s (slotIdx k) else 0)
  simp only [Equiv.ofBijective_apply] at hperm
  rw [hperm, sum_slots t _ (fun k hk => if_neg hk)]
  rw [if_pos (show (2 * t.val) / 2 = t.val by omega), if_pos (show (2 * t.val + 1) / 2 = t.val by omega)]
  have e0 : tokenOf ⟨2 * t.val, by omega⟩ = t := Fin.ext (show 2 * t.val / 2 = t.val by omega)
  have e1 : tokenOf ⟨2 * t.val + 1, by omega⟩ = t := Fin.ext (show (2 * t.val + 1) / 2 = t.val by omega)
  have s0 : slotIdx ⟨2 * t.val, by omega⟩ = ix2 t (0 : Fin 2) :=
    ix2_congr (Fin.ext (show 2 * t.val / 2 = t.val by omega)) (Fin.ext (show 2 * t.val % 2 = 0 by omega))
  have s1 : slotIdx ⟨2 * t.val + 1, by omega⟩ = ix2 t (1 : Fin 2) :=
    ix2_congr (Fin.ext (show (2 * t.val + 1) / 2 = t.val by omega)) (Fin.ext (show (2 * t.val + 1) % 2 = 1 by omega))
  rw [e0, e1, s0, s1]
  -- distributivity, on real witnesses
  obtain ⟨xr, hxr⟩ := hx (ix2 t d)
  obtain ⟨a, ha⟩ := hs (ix2 t (0 : Fin 2))
  obtain ⟨b, hb⟩ := hs (ix2 t (1 : Fin 2))
  rw [hxr, ha, hb, zero_add, ← EReal.coe_mul, ← EReal.coe_mul, ← EReal.coe_add, ← EReal.coe_add, ← EReal.coe_mul]
  exact congrArg (fun r : ℝ => (r : EReal)) (by ring)

end Cert.RefOut

end
-- ==== Proof.LibScatterFold.lean ====
/-
  What a scatter leaves at ONE element of its result.

  The scatter meets its updates one by one in row-major order. An update that lands at `i₀` replaces the running
  result's element there by the body applied to that element and the update; an update that lands outside the operand
  is dropped. So at a fixed result index `i` only the updates landing at `i` are seen, in their row-major order: the
  element there is the left fold of the body, started at the operand's element, over those updates. Nothing is asked
  of the body for this. When the body is the addition of a commutative monoid, the fold is the operand's element plus
  the sum of the updates that land at `i`, a sum over the set of update indices in which the order no longer shows.
-/
import Idealize.ShloMosaic.PureOps.ShapeOps
import Mathlib.Algebra.BigOperators.Fin

open scoped BigOperators

namespace Idealize.ShloMosaic.ScatterFold

open Idealize.ShloMosaic

variable {α : Type} {s si u : Shape} {w : Nat}

/-- One step of a scatter read at `i`: the body applied to the element and the update when the update lands at `i`,
    the element unchanged when it lands elsewhere or nowhere. -/
theorem step_apply (d : ScatterDims s si u) (f : α → α → α) (idx : IVec si w) (upd : u.Idx → α) (r : s.Idx → α)
    (j : u.Idx) (i : s.Idx) :
    (match d.resultIdx? j idx with
      | some i₀ => fun i' => if i' = i₀ then f (r i₀) (upd j) else r i'
      | none => r) i
      = if d.resultIdx? j idx = some i then f (r i) (upd j) else r i := by
  cases h : d.resultIdx? j idx with
  | none => simp
  | some i₀ =>
    by_cases e : i = i₀
    · subst e; simp
    · have e' : ¬ i₀ = i := fun h => e h.symm
      simp [e, e']

/-- The fold of the scatter's step over ANY list of update numbers, read at `i`: the left fold of the body, from the
    running result's element at `i`, over the numbers of the list whose update lands at `i`, in the list's order. -/
theorem foldl_step_apply (d : ScatterDims s si u) (f : α → α → α) (idx : IVec si w) (upd : u.Idx → α) (i : s.Idx) :
    ∀ (l : List (Fin u.numel)) (r : s.Idx → α),
      l.foldl (fun r n =>
          match d.resultIdx? (u.rowMajor.symm n) idx with
          | some i₀ => fun i' => if i' = i₀ then f (r i₀) (upd (u.rowMajor.symm n)) else r i'
          | none => r) r i
        = (l.filter fun n => d.resultIdx? (u.rowMajor.symm n) idx = some i).foldl
            (fun a n => f a (upd (u.rowMajor.symm n))) (r i)
  | [], _ => rfl
  | n :: l, r => by
    rw [List.foldl_cons, foldl_step_apply d f idx upd i l, step_apply, List.filter_cons]
    by_cases h : d.resultIdx? (u.rowMajor.symm n) idx = some i
    · simp only [h, if_true, decide_true, List.foldl_cons]
    · simp only [h, if_false, decide_false]
      rfl

/-- A scatter read at `i`, for any body: the left fold of the body from the operand's element at `i` over the
    updates that land at `i`, in row-major order. -/
theorem scatter_apply (d : ScatterDims s si u) (f : α → α → α) (x : s.Idx → α) (idx : IVec si w) (upd : u.Idx → α)
    (i : s.Idx) :
    Host.scatter d f x idx upd i
      = ((List.finRange u.numel).filter fun n => d.resultIdx? (u.rowMajor.symm n) idx = some i).foldl
          (fun a n => f a (upd (u.rowMajor.symm n))) (x i) :=
  foldl_step_apply d f idx upd i _ x

/-- A left fold of additions over the members of a list that pass a test is the start plus the sum, over the whole
    list, of the terms with the failing members' terms replaced by zero. -/
theorem foldl_add_filter {ι : Type} [AddCommMonoid α] (p : ι → Bool) (g : ι → α) :
    ∀ (l : List ι) (a : α),
      (l.filter p).foldl (fun a n => a + g n) a = a + (l.map fun n => if p n then g n else 0).sum
  | [], a => by simp
  | n :: l, a => by
    rw [List.filter_cons, List.map_cons, List.sum_cons]
    cases h : p n
    · simp only [Bool.false_eq_true, if_false, zero_add]
      exact foldl_add_filter p g l a
    · simp only [if_true, List.foldl_cons]
      rw [foldl_add_filter p g l (a + g n), add_assoc]

/-- An accumulating scatter read at `i`: when the body is the addition of a commutative monoid, the operand's
    element at `i` plus the sum of the updates that land at `i`. -/
theorem scatter_add_apply [AddCommMonoid α] (d : ScatterDims s si u) (x : s.Idx → α) (idx : IVec si w)
    (upd : u.Idx → α) (i : s.Idx) :
    Host.scatter d (fun a b => a + b) x idx upd i
      = x i + ∑ j : u.Idx, if d.resultIdx? j idx = some i then upd j else 0 := by
  rw [scatter_apply, foldl_add_filter (fun n => decide (d.resultIdx? (u.rowMajor.symm n) idx = some i))
    (fun n => upd (u.rowMajor.symm n))]
  congr 1
  rw [← Fin.sum_univ_def]
  simp only [decide_eq_true_eq]
  exact Equiv.sum_comp u.rowMajor.symm (fun j => if d.resultIdx? j idx = some i then upd j else 0)

end Idealize.ShloMosaic.ScatterFold
-- ==== Proof.HistEq.lean ====
/-
  The two counts of slots per expert are the same eight words.

  Both programs count, for each expert number `e` below eight, the slots among the 16384 whose id is `e`, as a
  32-bit word. One adds a one into eight zeros at each slot's id, slot after slot, dropping an id that is no expert
  number; the other compares every slot with every expert number, widens the truth values to words and adds them
  down the slots. Read at `e`, each is a sum over the slots of the same indicator, so each is the number of slots
  whose id is the word `e`. Ids are taken to be non-negative; none is asked to be below eight, since a larger one is
  dropped by the first count and matches no expert number in the second.
-/
import proofs.«415601_j22874995818748_3_alg».proof.Proof.RefTerms
import proofs.«415601_j22874995818748_3_alg».proof.Proof.KerTerms
import proofs.«415601_j22874995818748_3_alg».proof.Proof.LibSegmentScatter
import proofs.«415601_j22874995818748_3_alg».proof.Proof.LibIndexRange
import proofs.«415601_j22874995818748_3_alg».proof.Proof.LibScatterFold
import Idealize.ShloMosaic.Lib.ValueIdx
import Idealize.ShloMosaic.Lib.ValueIdxRank1
import Idealize.ShloMosaic.Lib.SortFacts
import Idealize.ShloMosaic.Lib.StableHlo.Predicate
import Mathlib.Data.BitVec
import Mathlib.Algebra.BigOperators.Fin
import Mathlib.Algebra.BigOperators.Ring.Finset

open scoped BigOperators

namespace Cert.HistEq

open Idealize.ShloMosaic Idealize.ShloMosaic.ValueIdx Idealize.ShloMosaic.StableHlo.Predicate

/-! ## Words -/

/-- A word read signed is the small number `e` exactly when it is the word `e`. -/
theorem toInt_eq_iff (w : BitVec 32) (e : Nat) (he : e < 2 ^ 31) : w.toInt = (e : ℤ) ↔ w = BitVec.ofNat 32 e := by
  constructor
  · intro h
    apply BitVec.eq_of_toInt_eq
    rw [toInt_ofNat_small e he]
    exact h
  · rintro rfl
    exact toInt_ofNat_small e he

/-- The signed maximum of zero and a non-negative word is the word. -/
theorem maxsi_zero_eq {w : BitVec 32} (h : 0 ≤ w.toInt) : IntOp.maxsi 0#32 w = w := by
  unfold IntOp.maxsi
  have : w.slt 0#32 = false := by
    simp only [BitVec.slt, decide_eq_false_iff_not, not_lt]
    simpa using h
  rw [this]
  rfl

/-- The rank-1 index at a coordinate, in its two spellings. -/
theorem ofFin_eq_ix1 {n : Nat} (k : Fin n) : Shape.Idx.ofFin k = ix1 k :=
  (eq_ix1 _).trans (congrArg ix1 (Shape.Idx.ofFin_zero k))

/-- Row `p` of a one-column table, in its two spellings. -/
theorem ixP_eq_ix2 {n : Nat} (p : Fin n) : ixP p = ix2 p (0 : Fin 1) := by
  funext a
  match a with
  | ⟨0, _⟩ => rfl
  | ⟨1, _⟩ => rfl

/-! ## The count by scattered ones -/

section Ref
variable [Cert.ReferenceIdeal.Facts]
open Cert.ReferenceIdeal Cert.ReferenceIdeal.Terms Cert.ReferenceIdeal.Facts₀

/-- With non-negative ids, the start index of slot `n` is the slot's id: the clip at zero and the wrap of a negative
    index change nothing. -/
theorem start_apply (ids : IVec S8192x2 32) (hids : ∀ i, 0 ≤ (ids i).toInt) (n : Fin 16384) :
    col (wrap 8#32 (clipped ids)) (ix2 n (0 : Fin 1)) = flat ids (ix1 n) := by
  have h0 : 0 ≤ (flat ids (ix1 n)).toInt := hids _
  have hc : clipped ids (ix1 n) = flat ids (ix1 n) := maxsi_zero_eq h0
  have hw : wrap 8#32 (clipped ids) (ix1 n) = clipped ids (ix1 n) :=
    IndexRange.select_wrap_eq 8#32 (hc ▸ h0)
  have hcol : col (wrap 8#32 (clipped ids)) (ix2 n (0 : Fin 1)) = wrap 8#32 (clipped ids) (ix1 n) := by
    rw [← ofFin_eq_ix1, ← ixP_eq_ix2]
    exact bcast_col1 bcast_S16384_S16384x1_0 _ n
  rw [hcol, hw, hc]

end Ref

section Ref2
variable [Cert.ReferenceIdeal.Facts]
open Cert.ReferenceIdeal Cert.ReferenceIdeal.Terms Cert.ReferenceIdeal.Facts₀

/-- The count by scattered ones at expert `b`: the number of slots whose id is the word `b`. -/
theorem refHist_apply (ids : IVec S8192x2 32) (hids : ∀ i, 0 ≤ (ids i).toInt) (b : Fin 8) :
    refHist ids (ix1 b)
      = (((Finset.univ.filter fun n : Fin 16384 => flat ids (ix1 n) = BitVec.ofNat 32 b.val).card : ℕ) : BitVec 32) := by
  have hd : scatter_S8_S16384x1_S16384_n_0_0_1
      = SegmentScatter.elemDims 8 16384 scatter_S8_S16384x1_S16384_n_0_0_1_wf := rfl
  unfold refHist
  rw [hd]
  show Host.scatter _ (fun a b => a + b) _ _ _ _ = _
  rw [ScatterFold.scatter_add_apply]
  have hz : broadcastInDim S8 ![] bcast_S_S8 (constantI S_ 32 0#32) (ix1 b) = 0 := rfl
  rw [hz, zero_add]
  refine (Equiv.sum_comp (idxEquiv1 (n := 16384)).symm _).symm.trans ?_
  refine (Finset.sum_congr rfl fun n _ => ?_).trans (Finset.sum_boole _ _)
  show (if (SegmentScatter.elemDims 8 16384 scatter_S8_S16384x1_S16384_n_0_0_1_wf).resultIdx? (ix1 n)
      (col (wrap 8#32 (clipped ids))) = some (ix1 b) then (1 : BitVec 32) else 0) = _
  simp only [SegmentScatter.elem_resultIdx?_eq_some_iff, start_apply ids hids,
    toInt_eq_iff _ b.val (by have := b.isLt; omega)]

end Ref2

/-! ## The count by comparing every slot with every expert number -/

section Ker
variable [Cert.KernelIdeal.Facts]
open Cert.KernelIdeal Cert.KernelIdeal.Terms Cert.KernelIdeal.Facts₀

/-- The count by compares at expert `b`, as a number: the number of slots whose id is the word `b`. -/
theorem kerHist_toNat (ids : IVec S8192x2 32) (b : Fin 8) :
    (kerHist ids (ix1 b)).toNat
      = (Finset.univ.filter fun n : Fin 16384 => flat ids (ix1 n) = BitVec.ofNat 32 b.val).card := by
  unfold kerHist oneHot
  rw [toNat_reduce_count_rows (n := 16384) (m := 8) (by norm_num) _ natLt_1_32 reducesTo_S16384x8_S8_d0 h_S_ (ix1 b)]
  refine congrArg Finset.card (Finset.filter_congr fun n _ => ?_)
  show IntOp.cmpi .eq
      (broadcastInDim S16384x8 ![0, 1] bcast_S16384x1_S16384x8_0_1
        (broadcastInDim S16384x1 ![0] bcast_S16384_S16384x1_0 (flat ids)) (ij n b))
      (broadcastInDim S16384x8 ![0, 1] bcast_S1x8_S16384x8_0_1
        (broadcastInDim S1x8 ![1] bcast_S8_S1x8_1 (iotaInDim S8 32 0)) (ij n b)) = 1#1 ↔ _
  rw [cmpi_eq_iff, bcast_rows, bcast_cols, iota_apply, ofFin_eq_ix1]

end Ker

/-! ## The two counts -/

/-- For non-negative ids the count by scattered ones and the count by compares are the same eight words. -/
theorem hist_eq [Cert.ReferenceIdeal.Facts] [Cert.KernelIdeal.Facts] (ids : IVec Cert.ReferenceIdeal.S8192x2 32)
    (hids : ∀ i, 0 ≤ (ids i).toInt) :
    Cert.ReferenceIdeal.Terms.refHist ids = Cert.KernelIdeal.Terms.kerHist ids := by
  funext j
  obtain ⟨b, rfl⟩ : ∃ b : Fin 8, j = ix1 b := ⟨j 0, eq_ix1 j⟩
  have hf : Cert.ReferenceIdeal.Terms.flat ids = Cert.KernelIdeal.Terms.flat ids := rfl
  apply BitVec.eq_of_toNat_eq
  rw [kerHist_toNat, refHist_apply ids hids, hf, BitVec.natCast_eq_ofNat, BitVec.toNat_ofNat]
  have hle : (Finset.univ.filter fun n : Fin 16384 =>
      Cert.KernelIdeal.Terms.flat ids (ix1 n) = BitVec.ofNat 32 b.val).card ≤ 16384 :=
    (Finset.card_le_univ _).trans (by simp)
  exact Nat.mod_eq_of_lt (by omega)

end Cert.HistEq
-- ==== Proof.PreFacts.lean ====
/-
  What the precondition says of the three inputs: every feature and every score is a real number (its absolute
  value is below `+∞`), and no expert id is negative.
-/
import proofs.«415601_j22874995818748_3_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.PreFacts

open Idealize.ShloMosaic Cert.Pre_finite_inputs

variable [Facts]
open Facts

instance : Subsingleton S_.Idx := ⟨fun _ _ => funext fun d => d.elim0⟩

/-- An extended real whose absolute value is below `+∞` is a real number. -/
theorem real_of_abs_lt_top (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- The precondition, read: finite features, finite scores, ids from zero up. -/
theorem decode (x : FVec Ideal S8192x2048 .f32) (s : FVec Ideal S8192x2 .f32) (ids : IVec S8192x2 32)
    (h : fn (F := Ideal) x s ids = fun _ => 1#1) :
    (∀ i, ∃ r : ℝ, x i = (r : EReal)) ∧ (∀ i, ∃ r : ℝ, s i = (r : EReal)) ∧ (∀ i, 0 ≤ (ids i).toInt) := by
  have h0 := congrFun h ValueIdx.ix0
  dsimp only [fn] at h0
  change IntOp.andi (IntOp.andi _ _) _ = 1#1 at h0
  obtain ⟨h12, h3⟩ := IntOp.andi_eq_one.1 h0
  obtain ⟨h1, h2⟩ := IntOp.andi_eq_one.1 h12
  refine ⟨fun i => ?_, fun i => ?_, fun i => ?_⟩
  · exact real_of_abs_lt_top _ (Host.reduce_andi_all _ _ _ _ _ h1 i)
  · exact real_of_abs_lt_top _ (Host.reduce_andi_all _ _ _ _ _ h2 i)
  · have h4 : IntOp.cmpi .sge (ids i) 0#32 = 1#1 := Host.reduce_andi_all _ _ _ _ _ h3 i
    have h5 := IntOp.cmpi_sge.1 h4
    simpa using h5

end Cert.PreFacts

end
-- ==== Proof.lean ====
/-
  The certificate of the token dispatcher's row scaling.

  The kernel program scales row `t` of the features `x` by the sum of token `t`'s two routing scores, and counts
  the tokens per expert by comparing every id slot with the eight expert numbers. The reference sorts the 16384
  slots by expert id, gathers each slot's score and its token's row of `x`, multiplies, and adds the products back
  into zeros at the tokens; its count adds ones into eight zeros at the ids, the negative ones raised to zero.

  Equal results, on the extended reals, under the precondition (finite features and scores, no negative id):
  * the output: the sort only permutes the slots, and each token owns exactly the two slots `2t` and `2t + 1`,
    so the reference adds `x[t, d]·s[t, 0]` and `x[t, d]·s[t, 1]` into zero at `(t, d)`; on finite values that is
    `x[t, d]·(s[t, 0] + s[t, 1])`, the kernel's value (distributivity is what needs finiteness);
  * the count: with no negative id the raising to zero does nothing, a slot's one lands in bin `e` exactly when its
    id is `e`, ids of eight or more land nowhere and equal no expert number, so both sides count, for each `e`,
    the slots whose id is `e`, as sums of words in two orders.
  The frames of the two kernel programs are the generated ones; the reference's frame is its run, read off its
  list of host operations, with the results forgotten. The idealization rewrote nothing, so `preserves` is `True`.
-/
import proofs.«415601_j22874995818748_3_alg».proof.Defs
import proofs.«415601_j22874995818748_3_alg».proof.Proof.Gen.Kernel
import proofs.«415601_j22874995818748_3_alg».proof.Proof.Gen.Kernel.Skeleton
import proofs.«415601_j22874995818748_3_alg».proof.Proof.Gen.Kernel.Launch
import proofs.«415601_j22874995818748_3_alg».proof.Proof.Gen.Kernel.Points
import proofs.«415601_j22874995818748_3_alg».proof.Proof.Gen.Kernel.Frame
import proofs.«415601_j22874995818748_3_alg».proof.Proof.Gen.KernelIdeal
import proofs.«415601_j22874995818748_3_alg».proof.Proof.Gen.KernelIdeal.Skeleton
import proofs.«415601_j22874995818748_3_alg».proof.Proof.Gen.KernelIdeal.Launch
import proofs.«415601_j22874995818748_3_alg».proof.Proof.Gen.KernelIdeal.Points
import proofs.«415601_j22874995818748_3_alg».proof.Proof.Gen.KernelIdeal.Frame
import proofs.«415601_j22874995818748_3_alg».proof.Proof.Gen.KernelIdeal.Value
import proofs.«415601_j22874995818748_3_alg».proof.Proof.Gen.ReferenceIdeal
import proofs.«415601_j22874995818748_3_alg».proof.Proof.Gen.Pre_finite_inputs
import proofs.«415601_j22874995818748_3_alg».proof.Proof.KerValue
import proofs.«415601_j22874995818748_3_alg».proof.Proof.RefRun
import proofs.«415601_j22874995818748_3_alg».proof.Proof.RefOut
import proofs.«415601_j22874995818748_3_alg».proof.Proof.HistEq
import proofs.«415601_j22874995818748_3_alg».proof.Proof.PreFacts
import Idealize.ShloMosaic.Adequacy
import Idealize.ShloMosaic.Init

noncomputable section

namespace Cert.Proof

open Idealize.ShloMosaic Idealize.SL.Sem

/-- The kernel program as printed runs, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the two results forgotten. -/
theorem frame_ri : Cert.frame_ReferenceIdeal := fun m ρ _ =>
  (θ_run Cert.ReferenceIdeal.defs _ _).mono (fun _ h c => (h c).2.2)
    (Cert.ReferenceIdeal.RefRun.run (F := Ideal) m ρ)

/-- From memories agreeing on the arguments both programs end with the row-scaled features and the per-expert
    counts: the kernel's run names them, the reference's run ends at terms equal to them under the precondition. -/
theorem algebraic : Cert.algebraic_KernelIdeal_ReferenceIdeal := by
  intro m ρ m' ρ' hpre hagree
  refine ⟨_, _, Cert.KernelIdeal.KerValue.run m ρ, ?_⟩
  refine (θ_run Cert.ReferenceIdeal.defs _ _).mono (fun r h c => ?_)
    (Cert.ReferenceIdeal.RefRun.run (F := Ideal) m' ρ')
  obtain ⟨h38, h10, ha0, ha1, ha2⟩ := h c
  obtain ⟨hx, hs, hids⟩ := Cert.PreFacts.decode _ _ _ (hpre c)
  refine ⟨?_, ?_, ha0, ha1, ha2⟩
  · rw [h38, (hagree c).1, (hagree c).2.1, (hagree c).2.2]
    exact Cert.RefOut.refOut_eq _ _ _ hx hs
  · rw [h10, (hagree c).2.2]
    exact Cert.HistEq.hist_eq _ hids

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
